-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel

variable [Facts]

def fn {F : FTy → Type} [FloatOps F] (main_arg0 : FVec F S1048576x32 .f32) (main_arg1 : FVec F S1048576x32 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S1048576x32 .f32 := Host.absf main_arg1
  let main_cst_0 : FVec F S_ .f32 := constant S_ .f32 0x7F800000#32
  let main_v5 : FVec F S1048576x32 .f32 := broadcastInDim S1048576x32 ![] bcast_S_S1048576x32 main_cst_0
  let main_v6 : IVec S1048576x32 1 := cmpf .olt main_v4 main_v5
  let main_c_1 : IVec S_ 1 := constantI S_ 1 1#1
  let main_v7 : IVec S_ 1 := (fun x v => Host.reduce IntOp.andi x v reducesTo_S1048576x32_S_d0_1 h_S_) main_v6 main_c_1
  let main_v8 : IVec S_ 1 := andi main_v3 main_v7
  main_v8
-- ==== Kernel.lean ====
abbrev S1048576x32 : Shape := ⟨2, ![1048576, 32]⟩
abbrev S1x1 : Shape := ⟨2, ![1, 1]⟩
abbrev S4096x32 : Shape := ⟨2, ![4096, 32]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 4
  | .vmem => 6
  | .smem => 0
  | _ => 0

abbrev bufTy : (tb : Table) → Fin (tcTables nBuf tb) → BufTy
  | .hbm, ⟨0, _⟩ => ⟨S1048576x32, .f32⟩
  | .hbm, ⟨1, _⟩ => ⟨S1048576x32, .f32⟩
  | .hbm, ⟨2, _⟩ => ⟨S1x1, .f32⟩
  | .hbm, ⟨3, _⟩ => ⟨S_, .f32⟩
  | .local _ .vmem, ⟨0, _⟩ => ⟨S4096x32, .f32⟩
  | .local _ .vmem, ⟨1, _⟩ => ⟨S4096x32, .f32⟩
  | .local _ .vmem, ⟨2, _⟩ => ⟨S4096x32, .f32⟩
  | .local _ .vmem, ⟨3, _⟩ => ⟨S4096x32, .f32⟩
  | .local _ .vmem, ⟨4, _⟩ => ⟨S1x1, .f32⟩
  | .local _ .vmem, ⟨5, _⟩ => ⟨S1x1, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v27 : BitVec 1 := Scalar.cmpi .eq arg0 c255_i32
  let v28 : BitVec 32 := Scalar.extui v27
  let c0_i32_12 : BitVec 32 := 0#32
  let v29 : BitVec 1 := Scalar.cmpi .ne v28 c0_i32_12
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x32_S4096x32_0_0 : ∀ a, (![0, 0] : Fin 2 → Nat) a + S4096x32.size a ≤ S4096x32.size a
  h_S4096x32 : 0 < S4096x32.numel
  reduces_S4096x32_S4096 : S4096x32.Reduces [1] S4096
  shapeCasts_S4096_S4096x1 : S4096.ShapeCasts S4096x1
  broadcasts_S4096x1_S4096x32 : S4096x1.Broadcasts S4096x32
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S1048576x32.size a
  hwx0_0 : ∀ i : grid0.Coords, EltTy.bits .f32 = 32 ∨ (Rect.block (s := S1048576x32) S4096x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S1048576x32.size a
  hwx0_1 : ∀ i : grid0.Coords, EltTy.bits .f32 = 32 ∨ (Rect.block (s := S1048576x32) S4096x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1048576x32 : Shape := ⟨2, ![1048576, 32]⟩
abbrev S_ : Shape := ⟨0, ![]⟩
abbrev S1048576 : Shape := ⟨1, ![1048576]⟩
abbrev S1048576x1 : Shape := ⟨2, ![1048576, 1]⟩

abbrev nBuf : Space → Nat
  | .hbm => 25
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S1048576x32, .f32⟩
  | .hbm, ⟨2, _⟩ => ⟨S_, .f32⟩
  | .hbm, ⟨3, _⟩ => ⟨S1048576, .f32⟩
  | .hbm, ⟨4, _⟩ => ⟨S_, .f32⟩
  | .hbm, ⟨5, _⟩ => ⟨S1048576, .f32⟩
  | .hbm, ⟨6, _⟩ => ⟨S1048576, .f32⟩
  | .hbm, ⟨7, _⟩ => ⟨S1048576x1, .f32⟩
  | .hbm, ⟨8, _⟩ => ⟨S1048576x32, .f32⟩
  | .hbm, ⟨9, _⟩ => ⟨S1048576x32, .f32⟩
  | .hbm, ⟨10, _⟩ => ⟨S1048576x32, .f32⟩
  | .hbm, ⟨11, _⟩ => ⟨S_, .f32⟩
  | .hbm, ⟨12, _⟩ => ⟨S1048576, .f32⟩
  | .hbm, ⟨13, _⟩ => ⟨S1048576x1, .f32⟩
  | .hbm, ⟨14, _⟩ => ⟨S1048576x1, .f32⟩
  | .hbm, ⟨15, _⟩ => ⟨S1048576x32, .f32⟩
  | .hbm, ⟨16, _⟩ => ⟨S1048576x32, .f32⟩
  | .hbm, ⟨17, _⟩ => ⟨S1048576x32, .f32⟩
  | .hbm, ⟨18, _⟩ => ⟨S_, .f32⟩
  | .hbm, ⟨19, _⟩ => ⟨S1048576, .f32⟩
  | .hbm, ⟨20, _⟩ => ⟨S1048576, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_cst_0 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩

abbrev nD : Nat := 1
abbrev τ : Topo := Topo.v7x

variable {F : FTy → Type} [FloatOps F]

class Facts₀ : Prop where
  reducesTo_S1048576x32_S1048576_d1 : S1048576x32.ReducesTo [1] S1048576
  h_S_ : 0 < S_.numel
  bcast_S_S1048576 : S_.BroadcastsInDim S1048576 (![] : Fin 0 → Fin S1048576.rank)
  bcast_S1048576_S1048576x1_0 : S1048576.BroadcastsInDim S1048576x1 (![0] : Fin 1 → Fin S1048576x1.rank)
  bcast_S1048576x1_S1048576x32_0_1 : S1048576x1.BroadcastsInDim S1048576x32 (![0, 1] : Fin 2 → Fin S1048576x32.rank)
  reducesTo_S1048576_S_d0 : S1048576.ReducesTo [0] S_

variable [Facts₀]

class Facts : Prop extends Facts₀ where

variable [Facts]
-- ==== Proof.Spec.lean ====
/-
  Soft-target cross-entropy, as mathematics on the extended reals.

  For one row of logits `x` and one row of soft targets `t` (32 classes) the loss is
      -(∑ₖ tₖ · ((xₖ - M) - log ∑ⱼ exp (xⱼ - M))),    M = max over the row (folded from -∞),
  the numerically stable log-softmax written out. The result of the whole computation is the mean of the
  row losses over the 1048576 rows: their sum divided by 1048576.

  Two facts about sums over the rows live here as well. A running total that has absorbed the first `n`
  tiles of 4096 rows and then adds tile `n` has absorbed the first `n + 1` tiles: extended-real addition
  is commutative and associative, so no finiteness is asked. And multiplying by the dyadic 2⁻²⁰ is dividing
  by 2²⁰ on every extended real.
-/
import Idealize.ShloMosaic.PureOps.Ideal
import Idealize.ShloMosaic.PureOps.Ideal.Laws
import Idealize.ShloMosaic.Lib.ValueIdx
import Mathlib.Algebra.BigOperators.Fin
import Mathlib.Algebra.BigOperators.Intervals

noncomputable section

open scoped BigOperators

namespace Cert.SoftCE

open Idealize.ShloMosaic Idealize.ShloMosaic.ValueIdx

/-- The pattern of -∞, the value a row maximum is folded from. -/
abbrev negInf : EReal := Ideal.ofBits .f32 0xFF800000#32

/-- A row's maximum: `max` folded over the 32 classes from -∞. -/
def rowMax (x : Fin 32 → EReal) : EReal := (Finset.univ : Finset (Fin 32)).fold max negInf x

/-- A row's loss: minus the target-weighted sum of the row's log-softmax. -/
def rowLoss (x t : Fin 32 → EReal) : EReal :=
  -(∑ k : Fin 32, t k * ((x k - rowMax x) - Ideal.log (∑ j : Fin 32, Ideal.exp (x j - rowMax x))))

/-- The shape of the logits and of the targets. -/
abbrev SArr : Shape := ⟨2, ![1048576, 32]⟩

/-- Row `n`'s loss read off the two arrays, by the row's number; zero past the last row. -/
def lossAt (X T : SArr.Idx → EReal) (n : ℕ) : EReal :=
  if h : n < 1048576 then rowLoss (fun k => X (ix2 ⟨n, h⟩ k)) (fun k => T (ix2 ⟨n, h⟩ k)) else 0

/-- The mean loss: the sum of the row losses divided by the number of rows. -/
def meanLoss (X T : SArr.Idx → EReal) : EReal :=
  Ideal.div (∑ n : Fin 1048576, rowLoss (fun k => X (ix2 n k)) (fun k => T (ix2 n k))) ((1048576 : ℝ) : EReal)

/-- Summing `lossAt` over the row numbers below 1048576 is summing the row losses over the rows. -/
theorem sum_lossAt (X T : SArr.Idx → EReal) :
    ∑ n ∈ Finset.range 1048576, lossAt X T n
      = ∑ n : Fin 1048576, rowLoss (fun k => X (ix2 n k)) (fun k => T (ix2 n k)) := by
  rw [Finset.sum_range]
  refine Finset.sum_congr rfl fun n _ => ?_
  unfold lossAt
  rw [dif_pos n.isLt]

/-- A total over the first `n` tiles of 4096 rows plus tile `n`'s own total is the total over the first `n + 1`. -/
theorem tile_step (f : ℕ → EReal) (n : ℕ) :
    (∑ i ∈ Finset.range (n * 4096), f i) + ∑ r : Fin 4096, f (n * 4096 + r.val)
      = ∑ i ∈ Finset.range ((n + 1) * 4096), f i := by
  rw [Nat.succ_mul, Finset.sum_range_add, Finset.sum_range (fun r => f (n * 4096 + r))]

/-- The pattern `0x49800000` is 2²⁰ = 1048576. -/
theorem ofBits_rows : Ideal.ofBits .f32 0x49800000#32 = ((1048576 : ℝ) : EReal) := by
  simp [Ideal.ofBits, Ideal.ieee, -EReal.coe_mul]; norm_num

/-- The pattern `0x35800000` is 2⁻²⁰ = 1/1048576. -/
theorem ofBits_inv_rows : Ideal.ofBits .f32 0x35800000#32 = ((1 / 1048576 : ℝ) : EReal) := by
  simp [Ideal.ofBits, Ideal.ieee, -EReal.coe_mul]; norm_num

/-- Multiplying by 2⁻²⁰ is dividing by 2²⁰, on every extended real. -/
theorem mul_inv_rows (s : EReal) :
    s * Ideal.ofBits .f32 0x35800000#32 = Ideal.div s ((1048576 : ℝ) : EReal) := by
  rw [ofBits_inv_rows, Ideal.div_coe (by norm_num : (1048576 : ℝ) ≠ 0)]

end Cert.SoftCE

end
-- ==== Proof.LibColumn.lean ====
/-
  A vector kept as a COLUMN: what `jnp.sum(..., axis=-1, keepdims=True)` leaves in a kernel body is a length-`a`
  vector cast to the one-column matrix `[a, 1]` and then broadcast across `b` columns to `[a, b]`. Read at an entry
  `(p, c)`, the cast forgets the unit coordinate and the broadcast forgets the column: both give the vector at `p`.
  Stated for any extents and any element type; nothing here mentions a program.
-/
import Idealize.ShloMosaic.Lib.Pipeline.Value
import Idealize.ShloMosaic.Lib.ValueIdx

namespace Cert.LibColumn

open Idealize.ShloMosaic Idealize.ShloMosaic.ValueIdx

variable {α : Type}

/-- A length-`a` vector cast to the column `[a, 1]` reads, at `(p, u)`, the vector at `p`: row-major position
    `p · 1 + u` with `u = 0` is position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast across `b` columns reads, at `(p, c)`, the column's entry in row `p`: the row
    coordinate is kept (or is `0` already when `a = 1`), the unit axis reads `0`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector laid down the rows of an `[a, b]` matrix, through its column cast, reads the
    vector at the row. -/
theorem broadcastTo_column_apply {a b : ℕ} (x : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (c : Fin b) :
    broadcastTo ⟨2, ![a, b]⟩ (shapeCast ⟨2, ![a, 1]⟩ x h1) hb (ix2 p c) = x (ix1 p) :=
  (broadcastTo_a1_ab_apply _ hb p c).trans (shapeCast_a_a1_apply x h1 p 0)

end Cert.LibColumn
-- ==== Proof.KernelPayload.lean ====
/-
  What one grid step of the kernel adds to its running total, read on the extended reals.

  A step holds a tile of 4096 rows of logits `x` and of targets `t`. Row by row the body takes the row's maximum
  `M`, the shifted logits `x - M`, their exponentials' sum, its logarithm, the log-softmax `(x - M) - log ∑ exp (x - M)`,
  the target-weighted sum of that over the 32 classes, and its negation `0 - ·`: the row's loss. The 4096 losses
  are summed down the tile, and the one-entry total is added to the running total the step found.
  So the step leaves  `acc + ∑ᵣ rowLoss (x r) (t r)`.
-/
import proofs.«124802_j65403761983716_1_alg».proof.Proof.Gen.KernelIdeal.Skeleton
import proofs.«124802_j65403761983716_1_alg».proof.Proof.Spec
import proofs.«124802_j65403761983716_1_alg».proof.Proof.LibColumn
import Idealize.ShloMosaic.PureOps.Ideal.Laws
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx Cert.SoftCE Cert.LibColumn

/-- Over row `r`, the index with class `k` put back on the reduced axis is `(r, k)`. -/
theorem lift_row (h : S4096x32.Reduces [1] S4096) (r : Fin 4096) (k : Fin 32) :
    h.lift (ix1 r) k = ix2 r k := by
  funext d
  match d with
  | ⟨0, _⟩ => exact Fin.ext rfl
  | ⟨1, _⟩ => exact Fin.ext rfl

/-- Over the one entry of the tile's total, the index with row `r` put back on the reduced axis is `(r, 0)`. -/
theorem lift_col (h : S4096x1.Reduces [0] S1) (r : Fin 4096) :
    h.lift (ix1 (0 : Fin 1)) r = ix2 r (0 : Fin 1) := by
  funext d
  match d with
  | ⟨0, _⟩ => exact Fin.ext rfl
  | ⟨1, _⟩ => exact Fin.ext rfl

variable (x t : FVec Ideal S4096x32 .f32)

/-- The row maxima. -/
def rowMaxV : FVec Ideal S4096 .f32 :=
  multiReduction .maximumf [1] S4096 x 0xFF800000#32 reduces_S4096x32_S4096 (.inl rfl) rfl

/-- The logits less their row's maximum. -/
def shiftedV : FVec Ideal S4096x32 .f32 :=
  subf x (broadcastTo S4096x32 (shapeCast S4096x1 (rowMaxV x) shapeCasts_S4096_S4096x1) broadcasts_S4096x1_S4096x32)

/-- Each row's sum of exponentials. -/
def sumExpV : FVec Ideal S4096 .f32 :=
  multiReduction .add [1] S4096 (exp (shiftedV x)) 0x00000000#32 reduces_S4096x32_S4096 (.inl rfl) rfl

/-- The log-softmax. -/
def logpV : FVec Ideal S4096x32 .f32 :=
  subf (shiftedV x) (broadcastTo S4096x32 (log (shapeCast S4096x1 (sumExpV x) shapeCasts_S4096_S4096x1)) broadcasts_S4096x1_S4096x32)

/-- Each row's target-weighted sum of the log-softmax. -/
def rowSumV : FVec Ideal S4096 .f32 :=
  multiReduction .add [1] S4096 (mulf t (logpV x)) 0x00000000#32 reduces_S4096x32_S4096 (.inl rfl) rfl

/-- Each row's loss, kept as a column. -/
def lossV : FVec Ideal S4096x1 .f32 :=
  subf (broadcast S4096x1 (Scalar.ofBits .f32 0x00000000#32)) (shapeCast S4096x1 (rowSumV x t) shapeCasts_S4096_S4096x1)

/-- The tile's total. -/
def partialV : FVec Ideal S1 .f32 :=
  multiReduction .add [0] S1 (lossV x t) 0x00000000#32 reduces_S4096x1_S1 (.inl rfl) rfl

/-- The accumulating store's value is the running total plus the tile's total, through two casts that move nothing. -/
theorem pay2_eq (acc : FVec Ideal S1x1 .f32) :
    k0_pay2 (F := Ideal) x t acc
      = shapeCast S1x1 (addf acc (shapeCast S1x1 (partialV x t) shapeCasts_S1_S1x1)) shapeCasts_S1x1_S1x1 := rfl

theorem rowMaxV_apply (r : Fin 4096) : rowMaxV x (ix1 r) = rowMax (fun k => x (ix2 r k)) := by
  unfold rowMaxV rowMax
  refine (Ideal.multiReduction_maximumf_single x 0xFF800000#32 reduces_S4096x32_S4096 (.inl rfl) rfl (ix1 r)).trans ?_
  exact congrArg (fun f => (Finset.univ : Finset (Fin 32)).fold max negInf f)
    (funext fun k => congrArg x (lift_row reduces_S4096x32_S4096 r k))

theorem shiftedV_apply (r : Fin 4096) (k : Fin 32) :
    shiftedV x (ix2 r k) = x (ix2 r k) - rowMax (fun k => x (ix2 r k)) := by
  unfold shiftedV
  show x (ix2 r k) - broadcastTo S4096x32 (shapeCast S4096x1 (rowMaxV x) shapeCasts_S4096_S4096x1) broadcasts_S4096x1_S4096x32 (ix2 r k) = _
  rw [broadcastTo_column_apply (rowMaxV x) shapeCasts_S4096_S4096x1 broadcasts_S4096x1_S4096x32 r k, rowMaxV_apply]

theorem sumExpV_apply (r : Fin 4096) :
    sumExpV x (ix1 r) = ∑ j : Fin 32, Ideal.exp (x (ix2 r j) - rowMax (fun k => x (ix2 r k))) := by
  unfold sumExpV
  refine (Ideal.multiReduction_add_single (exp (shiftedV x)) 0x00000000#32 reduces_S4096x32_S4096 (.inl rfl) rfl (ix1 r)).trans ?_
  refine Finset.sum_congr rfl fun (j : Fin 32) _ => ?_
  rw [lift_row reduces_S4096x32_S4096 r j]
  exact congrArg Ideal.exp (shiftedV_apply x r j)

theorem logpV_apply (r : Fin 4096) (k : Fin 32) :
    logpV x (ix2 r k) = (x (ix2 r k) - rowMax (fun k => x (ix2 r k)))
      - Ideal.log (∑ j : Fin 32, Ideal.exp (x (ix2 r j) - rowMax (fun k => x (ix2 r k)))) := by
  unfold logpV
  show shiftedV x (ix2 r k) - broadcastTo S4096x32 (log (shapeCast S4096x1 (sumExpV x) shapeCasts_S4096_S4096x1)) broadcasts_S4096x1_S4096x32 (ix2 r k) = _
  rw [broadcastTo_a1_ab_apply _ broadcasts_S4096x1_S4096x32 r k, shiftedV_apply]
  show _ - Ideal.log (shapeCast S4096x1 (sumExpV x) shapeCasts_S4096_S4096x1 (ix2 r (0 : Fin 1))) = _
  rw [shapeCast_a_a1_apply (sumExpV x) shapeCasts_S4096_S4096x1 r 0, sumExpV_apply]

theorem rowSumV_apply (r : Fin 4096) :
    rowSumV x t (ix1 r) = ∑ k : Fin 32, t (ix2 r k) * ((x (ix2 r k) - rowMax (fun k => x (ix2 r k)))
      - Ideal.log (∑ j : Fin 32, Ideal.exp (x (ix2 r j) - rowMax (fun k => x (ix2 r k))))) := by
  unfold rowSumV
  refine (Ideal.multiReduction_add_single (mulf t (logpV x)) 0x00000000#32 reduces_S4096x32_S4096 (.inl rfl) rfl (ix1 r)).trans ?_
  refine Finset.sum_congr rfl fun (k : Fin 32) _ => ?_
  rw [lift_row reduces_S4096x32_S4096 r k]
  exact congrArg (t (ix2 r k) * ·) (logpV_apply x r k)

theorem lossV_apply (r : Fin 4096) :
    lossV x t (ix2 r (0 : Fin 1)) = rowLoss (fun k => x (ix2 r k)) (fun k => t (ix2 r k)) := by
  unfold lossV rowLoss
  show Ideal.ofBits .f32 0x00000000#32 - shapeCast S4096x1 (rowSumV x t) shapeCasts_S4096_S4096x1 (ix2 r (0 : Fin 1)) = _
  rw [shapeCast_a_a1_apply (rowSumV x t) shapeCasts_S4096_S4096x1 r 0, rowSumV_apply, Ideal.ofBits_zero_f32, zero_sub]

theorem partialV_apply :
    partialV x t (ix1 (0 : Fin 1)) = ∑ r : Fin 4096, rowLoss (fun k => x (ix2 r k)) (fun k => t (ix2 r k)) := by
  unfold partialV
  refine (Ideal.multiReduction_add_single (lossV x t) 0x00000000#32 reduces_S4096x1_S1 (.inl rfl) rfl (ix1 (0 : Fin 1))).trans ?_
  refine Finset.sum_congr rfl fun (r : Fin 4096) _ => ?_
  rw [lift_col reduces_S4096x1_S1 r]
  exact lossV_apply x t r

/-- One step: the running total's one entry plus the tile's row losses. -/
theorem pay2_apply (acc : FVec Ideal S1x1 .f32) (j : S1x1.Idx) :
    k0_pay2 (F := Ideal) x t acc j
      = acc (ix2 (0 : Fin 1) (0 : Fin 1)) + ∑ r : Fin 4096, rowLoss (fun k => x (ix2 r k)) (fun k => t (ix2 r k)) := by
  obtain rfl : j = ix2 (0 : Fin 1) (0 : Fin 1) := funext fun d => match d with
    | ⟨0, _⟩ => Subsingleton.elim (α := Fin 1) _ _
    | ⟨1, _⟩ => Subsingleton.elim (α := Fin 1) _ _
  rw [pay2_eq, shapeCast_self]
  show acc (ix2 (0 : Fin 1) (0 : Fin 1)) + shapeCast S1x1 (partialV x t) shapeCasts_S1_S1x1 (ix2 (0 : Fin 1) (0 : Fin 1)) = _
  rw [shapeCast_a_a1_apply (partialV x t) shapeCasts_S1_S1x1 0 0, partialV_apply]

end Cert.KernelIdeal.Body

end
-- ==== Proof.KernelValue.lean ====
/-
  The kernel's result, read off its run.

  The grid walks the 256 tiles of 4096 rows in order. A one-entry scratch carries the running total: the first
  step zeroes it, every step adds its tile's row losses, and after step `n` it holds the total of the row losses
  of the first `(n + 1) · 4096` rows (by induction on the step; extended-real addition needs no finiteness for
  that). The last step multiplies the total by 2⁻²⁰ — which is dividing by 1048576 — and stores it into the one
  output block, the only block ever written back; the reshape after the region hands that entry on as the scalar
  result. So the result is the mean row loss.
-/
import proofs.«124802_j65403761983716_1_alg».proof.Proof.Gen.KernelIdeal.Frame
import proofs.«124802_j65403761983716_1_alg».proof.Proof.KernelPayload
import Idealize.ShloMosaic.Lib.Pipeline.Value
import Idealize.ShloMosaic.Lib.StableHlo.Run
import Idealize.ShloMosaic.Lib.Tactic

noncomputable section

open scoped BigOperators

namespace Cert.KernelIdeal.Total

open Cert.KernelIdeal Cert.KernelIdeal.Gen Idealize.ShloMosaic Idealize.ShloMosaic.TcCoe Idealize.SL.Sem
open Idealize.ShloMosaic.ValueIdx
open Idealize.ShloMosaic.Pipeline (Dat)
open Cert.SoftCE Cert.KernelIdeal.Body

theorem hz : (![0, 0] : Fin 2 → Nat) = fun _ => 0 := funext fun a => by fin_cases a <;> rfl

/-! ## What each kind of step leaves, as values of what it loads -/

section Pieces

variable {F : FTy → Type} [FloatOps F]

/-- The first step: the scratch is zeroed, read back, and left at the zero plus the tile's total. -/
theorem scratch_first (c : Dev nD) (i : grid0.Coords) (a1 : Memref sig .tc .vmem S4096x32 .f32) (h1 : a1.IsWhole)
    (a2 : Memref sig .tc .vmem S4096x32 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S4096x32 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S4096x32) hz]

/-- A middle step: the scratch, holding `xs`, is left at `xs` plus the tile's total. -/
theorem scratch_middle (c : Dev nD) (i : grid0.Coords) (a1 : Memref sig .tc .vmem S4096x32 .f32) (h1 : a1.IsWhole)
    (a2 : Memref sig .tc .vmem S4096x32 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S4096x32 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  sl_unfold_words
  rw [View.canon_unit_zero hz]
  simp only [View.readAt_eq_ld, h1.read_unread, h2.read_unread, h4.read_unread, View.ld_unit_zero (S := S4096x32) hz,
    View.ld_unit_zero (S := S1x1) hz]

/-- The last step leaves the scratch as a middle step does, -/
theorem scratch_last (c : Dev nD) (i : grid0.Coords) (a1 : Memref sig .tc .vmem S4096x32 .f32) (h1 : a1.IsWhole)
    (a2 : Memref sig .tc .vmem S4096x32 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4096x32 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz]
  simp only [View.readAt_eq_ld, h1.read_unread, h2.read_unread, h4.read_unread, View.ld_unit_zero (S := S4096x32) hz,
    View.ld_unit_zero (S := S1x1) hz]

/-- and stores the scaled total, read back from the scratch, into the output block. -/
theorem out_last (c : Dev nD) (i : grid0.Coords) (a1 : Memref sig .tc .vmem S4096x32 .f32) (h1 : a1.IsWhole)
    (a2 : Memref sig .tc .vmem S4096x32 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S4096x32 .f32) (xs : Vec F S1x1 .f32) :
    out0_C_2 c i a1 h1 a2 h2 a3 h3 a4 h4 hc0 hc1 x0 x1 xs = k0_pay3 (k0_pay2 x0 x1 xs) := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz, View.readCov_unit_zero (S := S1x1) _ hz]
  simp only [View.readAt_eq_ld, h1.read_unread, h2.read_unread, h4.read_unread, View.ld_unit_zero (S := S4096x32) hz,
    View.ld_unit_zero (S := S1x1) hz]

end Pieces

/-! ## The running total -/

variable (m : (ℓ : Loc nD τ sig) → Buf (Elt Ideal) ℓ) (ρ : Dev nD → PrngReg)

/-- The logits and the targets, as the region finds them. -/
abbrev X (c : Dev nD) : SArr.Idx → EReal := V m c main_arg0
abbrev T (c : Dev nD) : SArr.Idx → EReal := V m c main_arg1

/-- Tile `t` of the logits and of the targets: what the step's two input windows hold. -/
abbrev xblk (c : Dev nD) (t : Fin cfg0.N) : FVec Ideal S4096x32 .f32 := iblk m c 0 t
abbrev tblk (c : Dev nD) (t : Fin cfg0.N) : FVec Ideal S4096x32 .f32 := iblk m c 1 t

/-- Both input windows sit on tile `t` at step `t`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `r` of tile `t` is row `4096 t + r` of the array. -/
theorem xblk_apply (c : Dev nD) (t : Fin cfg0.N) (r : Fin 4096) (k : Fin 32) (h : t.val * 4096 + r.val < 1048576) :
    xblk m c t (ix2 r k) = X m c (ix2 ⟨t.val * 4096 + r.val, h⟩ k) := by
  obtain ⟨e0, e1, -, -⟩ := idx_facts t
  show iblk m c 0 t (ix2 r k) = _
  unfold iblk
  rw [View.read_apply]
  show V m c main_arg0 _ = V m c main_arg0 _
  refine congrArg (V m c main_arg0) (funext fun a => Fin.ext ?_)
  match a with
  | ⟨0, _⟩ => show win0_0.index t (0 : Fin 2) * 4096 + 1 * r.val = t.val * 4096 + r.val; rw [e0]; omega
  | ⟨1, _⟩ => show win0_0.index t (1 : Fin 2) * 32 + 1 * k.val = k.val; rw [e1]; omega

theorem tblk_apply (c : Dev nD) (t : Fin cfg0.N) (r : Fin 4096) (k : Fin 32) (h : t.val * 4096 + r.val < 1048576) :
    tblk m c t (ix2 r k) = T m c (ix2 ⟨t.val * 4096 + r.val, h⟩ k) := by
  obtain ⟨-, -, e0, e1⟩ := idx_facts t
  show iblk m c 1 t (ix2 r k) = _
  unfold iblk
  rw [View.read_apply]
  show V m c main_arg1 _ = V m c main_arg1 _
  refine congrArg (V m c main_arg1) (funext fun a => Fin.ext ?_)
  match a with
  | ⟨0, _⟩ => show win0_1.index t (0 : Fin 2) * 4096 + 1 * r.val = t.val * 4096 + r.val; rw [e0]; omega
  | ⟨1, _⟩ => show win0_1.index t (1 : Fin 2) * 32 + 1 * k.val = k.val; rw [e1]; omega

/-- So the loss of row `r` of tile `t` is the loss of row `4096 t + r`. -/
theorem blk_loss (c : Dev nD) (t : Fin cfg0.N) (r : Fin 4096) :
    rowLoss (fun k => xblk m c t (ix2 r k)) (fun k => tblk m c t (ix2 r k))
      = lossAt (X m c) (T m c) (t.val * 4096 + r.val) := by
  have hN : t.val < 256 := lt_of_lt_of_eq t.isLt (show cfg0.N = 256 from N_0)
  have hr : r.val < 4096 := r.isLt
  have h : t.val * 4096 + r.val < 1048576 := by omega
  unfold lossAt
  rw [dif_pos h]
  congr 1
  · funext k; exact xblk_apply m c t r k h
  · funext k; exact tblk_apply m c t r k h

/-- The total of the row losses of the first `n` tiles. -/
def total (c : Dev nD) (n : ℕ) : EReal := ∑ i ∈ Finset.range (n * 4096), lossAt (X m c) (T m c) i

/-- A step that finds the total of the first `t` tiles leaves the total of the first `t + 1`. -/
theorem step_total (c : Dev nD) (t : Fin cfg0.N) (acc : FVec Ideal S1x1 .f32)
    (hacc : acc (ix2 (0 : Fin 1) (0 : Fin 1)) = total m c t.val) :
    k0_pay2 (F := Ideal) (xblk m c t) (tblk m c t) acc = fun _ => total m c (t.val + 1) := by
  funext j
  rw [pay2_apply, hacc]
  unfold total
  rw [← tile_step]
  exact congrArg (_ + ·) (Finset.sum_congr rfl fun r _ => blk_loss m c t r)

/-- The zero the first step stores is the total of no tiles. -/
theorem pay1_total (c : Dev nD) : k0_pay1 (F := Ideal) (ix2 (0 : Fin 1) (0 : Fin 1)) = total m c 0 := by
  unfold k0_pay1 total
  rw [shapeCast_self, Nat.zero_mul, Finset.range_zero, Finset.sum_empty]
  exact Ideal.ofBits_zero_f32

/-- THE INVARIANT: after step `n` the scratch holds the total of the first `n + 1` tiles. -/
theorem scratch_eq (c : Dev nD) : ∀ (n : ℕ) (h : n < cfg0.N), (outsAt0 m c n h).2 = fun _ => total m c (n + 1)
  | 0, h => by
    rw [outsAt0_A m c ⟨0, h⟩ rfl (by show ¬0 % 256 = 255; decide)]
    dsimp only
    refine (scratch_first (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) scM0_0 (Memref.isWhole_whole _) _ _ (iblk m c 0 ⟨0, h⟩) (iblk m c 1 ⟨0, h⟩)).trans ?_
    exact step_total m c ⟨0, h⟩ k0_pay1 (pay1_total m c)
  | n + 1, h => by
    have hN : cfg0.N = 256 := N_0
    have h0 : ¬(⟨n + 1, h⟩ : Fin cfg0.N).val % 256 = 0 := by dsimp only; omega
    have ih : (outsAt0 m c ((⟨n + 1, h⟩ : Fin cfg0.N).val - 1) (Nat.lt_of_le_of_lt (Nat.sub_le _ _) (⟨n + 1, h⟩ : Fin cfg0.N).isLt)).2
        (ix2 (0 : Fin 1) (0 : Fin 1)) = total m c (n + 1) :=
      congrFun (scratch_eq c n (Nat.lt_of_succ_lt h)) _
    by_cases h1 : (⟨n + 1, h⟩ : Fin cfg0.N).val % 256 = 255
    · rw [outsAt0_C m c ⟨n + 1, h⟩ h0 h1]
      dsimp only
      refine (scratch_last (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _ (iblk m c 0 ⟨n + 1, h⟩)
        (iblk m c 1 ⟨n + 1, h⟩) (outsAt0 m c ((⟨n + 1, h⟩ : Fin cfg0.N).val - 1) _).2).trans ?_
      exact step_total m c ⟨n + 1, h⟩ _ ih
    · rw [outsAt0_B m c ⟨n + 1, h⟩ h0 h1]
      dsimp only
      refine (scratch_middle (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _) _ _ (iblk m c 0 ⟨n + 1, h⟩)
        (iblk m c 1 ⟨n + 1, h⟩) (outsAt0 m c ((⟨n + 1, h⟩ : Fin cfg0.N).val - 1) _).2).trans ?_
      exact step_total m c ⟨n + 1, h⟩ _ ih

/-! ## The output block, the result array, the scalar result -/

/-- The last step. -/
abbrev tLast : Fin cfg0.N := ⟨255, by rw [show cfg0.N = 256 from N_0]; decide⟩

/-- The mean row loss, as the contents of the one-entry result array. -/
abbrev result (c : Dev nD) : Buf (Elt Ideal) ((c : Thread nD τ).loc main_v0) := fun _ => meanLoss (X m c) (T m c)

/-- The total over all 256 tiles divided by 1048576 is the mean row loss. -/
theorem div_total (c : Dev nD) : Ideal.div (total m c 256) ((1048576 : ℝ) : EReal) = meanLoss (X m c) (T m c) := by
  unfold total meanLoss
  rw [show 256 * 4096 = 1048576 from by norm_num, sum_lossAt]

/-- What the last step leaves in the output block: the mean row loss. -/
theorem out_eq (c : Dev nD) : (outsAt0 m c tLast.val tLast.isLt).1 = result m c := by
  have h0 : ¬tLast.val % 256 = 0 := by decide
  have h1 : tLast.val % 256 = 255 := by decide
  rw [outsAt0_C m c tLast h0 h1]
  dsimp only
  refine (out_last (F := Ideal) c (grid0.coords tLast) (ms0_0 tLast) (hs0_0 tLast) (ms0_1 tLast) (hs0_1 tLast) (ms0_2 tLast)
    (hs0_2 tLast) scM0_0 (Memref.isWhole_whole _) _ _ (iblk m c 0 tLast) (iblk m c 1 tLast)
    (outsAt0 m c (tLast.val - 1) _).2).trans ?_
  have ih : (outsAt0 m c (tLast.val - 1) (Nat.lt_of_le_of_lt (Nat.sub_le _ _) tLast.isLt)).2 (ix2 (0 : Fin 1) (0 : Fin 1))
      = total m c tLast.val :=
    congrFun (scratch_eq m c 254 _) _
  rw [step_total m c tLast _ ih]
  funext j
  unfold k0_pay3
  show total m c (255 + 1) * Ideal.ofBits .f32 0x35800000#32 = _
  rw [mul_inv_rows, div_total]

/-- The one write-back, at the last step, writes it: the block is the whole one-entry array. -/
theorem flushed_eq (c : Dev nD) (t : Fin cfg0.N) (hf : (cfg0.win 2).flush t = true) :
    (dats m 0 c).flushed 2 t = ((cfg0.win 2).blk t).view.read (Elt Ideal) (result m c) := by
  have hN : cfg0.N = 256 := N_0
  have h255 : t.val = 255 := by have := (flush0_2 t).mp hf; have := t.isLt; omega
  obtain rfl : t = tLast := Fin.ext h255
  show (cfg0.win 2).cut (grid0.coords tLast) ((dats m 0 c).after 2 tLast) = _
  rw [after0_2, out_eq]
  have hz' : (fun a => win0_2.index tLast a * main_v0.ty.shape.size a) = fun _ => 0 :=
    funext fun a => by fin_cases a <;> decide +kernel
  exact (Memref.read_access_unit_zero (Elt Ideal) main_v0 hz' (fun a => by rw [congrFun hz' a]; simp) (result m c)).symm

/-- So the result array ends holding the mean row loss. -/
theorem final_o (c : Dev nD) : (dats m 0 c).arrAt 2 cfg0.N = result m c :=
  (dats m 0 c).arrAt_eq_of_cover 2 (result m c) (flushed_eq m c) fun i =>
    ⟨tLast, (flush0_2 tLast).mpr (by decide), by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The reshape after the region hands the array's one entry on as the scalar result. -/
theorem tail_eq (c : Dev nD) :
    Pipeline.afterTail₀ cfgs (dats m) 0 (V0 m) [hostOps1] c main_v1 = fun _ => meanLoss (X m c) (T m c) := by
  unfold Pipeline.afterTail₀
  show StableHlo.after hostOps1 _ (Proc.devRef .tc main_v1) = _
  after_results
  rw [(Pipeline.withArrays_arr spec0 launch0.win.arr_inj c _ _ 2).trans (final_o m c)]
  rfl

/-- The run, read: the scalar result at the mean row loss of the arguments, the arguments unchanged. -/
theorem run : θ_run defs (onTc (τ := τ) (main (F := Ideal))) ⟨m, fun _ => 0, ρ⟩ fun r => ∀ c : Dev nD,
      r.2.mem ((c : Thread nD τ).loc main_v1)
          = (fun _ => meanLoss (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Total

end
-- ==== Proof.RefValue.lean ====
/-
  The reference, read one operation at a time, computes the mean row loss.

  `jax.nn.log_softmax` takes each row's maximum (a fold of `max` from -∞, then once more `max` with -∞, which
  changes nothing), subtracts it, and subtracts the logarithm of the row's sum of exponentials; the reference
  multiplies by the targets, sums over the classes, negates, sums over the rows from zero, and divides by
  1048576. Row by row that is `rowLoss`, and in all it is `meanLoss`.
-/
import proofs.«124802_j65403761983716_1_alg».proof.Proof.RefRead
import proofs.«124802_j65403761983716_1_alg».proof.Proof.Spec
import Idealize.ShloMosaic.Lib.ValueIdxRank1
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.SoftCE

/-- Folding `max` from -∞ already dominates -∞. -/
theorem max_negInf_rowMax (x : Fin 32 → EReal) : max negInf (rowMax x) = rowMax x :=
  max_eq_right ((Finset.le_fold_max negInf).mpr (Or.inl le_rfl))

/-- Over row `n`, the index with class `k` put back on the reduced axis is `(n, k)`. -/
theorem lift_row (h : S1048576x32.Reduces [1] S1048576) (n : Fin 1048576) (k : Fin 32) :
    h.lift (ix1 n) k = ix2 n k := by
  funext d
  match d with
  | ⟨0, _⟩ => exact Fin.ext rfl
  | ⟨1, _⟩ => exact Fin.ext rfl

variable (x0 x1 : (⟨S1048576x32, .f32⟩ : BufTy).Contents (Elt Ideal))

/-- The row maximum the reference subtracts. -/
theorem max_at (n : Fin 1048576) :
    val_main_call0_v2 (F := Ideal) x0 (ix1 n) = rowMax (fun k => x0 (ix2 n k)) := by
  have e0 : val_main_call0_v0 (F := Ideal) x0 (ix1 n) = rowMax (fun k => x0 (ix2 n k)) := by
    unfold val_main_call0_v0 rowMax
    refine (Host.reduce_eq_fold_single (α := EReal) (s := S1048576x32) (t := S1048576) (u := S_) (a := (1 : Fin 2))
      (FloatOps.maximumf (F := Ideal) (φ := .f32)) (x0 : S1048576x32.Idx → EReal)
      ((val_main_call0_cst (F := Ideal)) : S_.Idx → EReal)
      reducesTo_S1048576x32_S1048576_d1 (by decide) h_S_ (ix1 n)).trans ?_
    exact congrArg (fun f => (Finset.univ : Finset (Fin 32)).fold max negInf f)
      (funext fun k => congrArg x0 (lift_row _ n k))
  rw [val_main_call0_v2_apply, val_main_call0_v1_apply, val_main_call0_cst_0_apply, e0]
  exact max_negInf_rowMax _

theorem shifted_at (n : Fin 1048576) (k : Fin 32) :
    val_main_call0_v5 (F := Ideal) x0 (ix2 n k) = x0 (ix2 n k) - rowMax (fun k => x0 (ix2 n k)) := by
  rw [val_main_call0_v5_apply, val_main_call0_v4_apply, val_main_call0_v3_apply]
  have e : idx_main_call0_v3 (idx_main_call0_v4 (ix2 n k)) = ix1 n := by
    funext a; match a with | ⟨0, _⟩ => rfl
  rw [e, max_at]
  rfl

theorem sumExp_at (n : Fin 1048576) :
    val_main_call0_v7 (F := Ideal) x0 (ix1 n)
      = ∑ j : Fin 32, Ideal.exp (x0 (ix2 n j) - rowMax (fun k => x0 (ix2 n k))) := by
  rw [val_main_call0_v7_apply, val_main_call0_cst_1_apply]
  show Ideal.ofBits .f32 0x00000000#32 + _ = _
  rw [Ideal.ofBits_zero_f32, zero_add]
  refine Finset.sum_congr rfl fun (j : Fin 32) _ => ?_
  have e : idx_main_call0_v7 (ix1 n) j = ix2 n j := by
    funext a; match a with | ⟨0, _⟩ => rfl | ⟨1, _⟩ => rfl
  rw [e, val_main_call0_v6_apply, shifted_at]
  rfl

theorem logp_at (n : Fin 1048576) (k : Fin 32) :
    val_main_v0 (F := Ideal) x0 (ix2 n k) = (x0 (ix2 n k) - rowMax (fun k => x0 (ix2 n k)))
      - Ideal.log (∑ j : Fin 32, Ideal.exp (x0 (ix2 n j) - rowMax (fun k => x0 (ix2 n k)))) := by
  rw [val_main_v0_apply, shifted_at, val_main_call0_v10_apply, val_main_call0_v9_apply, val_main_call0_v8_apply]
  have e : idx_main_call0_v8 (idx_main_call0_v10 (ix2 n k)) = ix1 n := by
    funext a; match a with | ⟨0, _⟩ => rfl
  rw [e, sumExp_at]
  rfl

/-- Row `n` of the negated class sums is row `n`'s loss. -/
theorem row_at (n : Fin 1048576) :
    val_main_v3 (F := Ideal) x0 x1 (ix1 n) = rowLoss (fun k => x0 (ix2 n k)) (fun k => x1 (ix2 n k)) := by
  rw [val_main_v3_apply, val_main_v2_apply, val_main_cst_apply]
  unfold rowLoss
  show -(Ideal.ofBits .f32 0x00000000#32 + _) = _
  rw [Ideal.ofBits_zero_f32, zero_add]
  refine congrArg (fun s : EReal => -s) (Finset.sum_congr rfl fun (k : Fin 32) _ => ?_)
  have e : idx_main_v2 (ix1 n) k = ix2 n k := by
    funext a; match a with | ⟨0, _⟩ => rfl | ⟨1, _⟩ => rfl
  rw [e, val_main_v1_apply, logp_at]
  rfl

/-- The reference's result is the mean row loss. -/
theorem result_eq : val_main_v5 (F := Ideal) x0 x1 = fun _ => meanLoss x0 x1 := by
  funext i
  rw [val_main_v5_apply, val_main_v4_apply, val_main_cst_0_apply, val_main_cst_1_apply]
  show Ideal.div (Ideal.ofBits .f32 0x00000000#32 + _) (Ideal.ofBits .f32 0x49800000#32) = _
  rw [Ideal.ofBits_zero_f32, zero_add, ofBits_rows]
  unfold meanLoss
  refine congrArg (fun s : EReal => Ideal.div s ((1048576 : ℝ) : EReal)) ?_
  rw [← Equiv.sum_comp (idxEquiv1 (n := 1048576)).symm]
  exact Finset.sum_congr rfl fun n _ => row_at x0 x1 n

end Cert.ReferenceIdeal.RefValue

end
-- ==== Proof.lean ====
/-
  Soft-target cross-entropy with a mean reduction: a tiled kernel against `jax.nn.log_softmax` and `jnp.mean`.

  Both programs compute, for 1048576 rows of 32 logits `x` and 32 soft targets `t`,
      (∑ over rows of  -(∑ₖ tₖ · ((xₖ - M) - log ∑ⱼ exp (xⱼ - M))))  /  1048576,    M the row's maximum.
  The kernel walks 256 tiles of 4096 rows, carries the running total of the row losses in a one-entry scratch, and
  at the last tile multiplies it by 2⁻²⁰; the reference sums all rows at once and divides by 2²⁰. On the extended
  reals the two agree for every input: regrouping a sum needs only commutativity and associativity of addition,
  and the product with the dyadic 2⁻²⁰ is the quotient by 2²⁰. The precondition is never opened.

  The three frames are the generated frame runs (the reference's is its run with the result dropped); the ideal
  pass rewrote nothing, so `preserves` is trivial; `algebraic` pairs the kernel's run, read as the mean row loss,
  with the reference's run, read one operation at a time as the same function.
-/
import proofs.«124802_j65403761983716_1_alg».proof.Defs
import proofs.«124802_j65403761983716_1_alg».proof.Proof.Gen.Kernel
import proofs.«124802_j65403761983716_1_alg».proof.Proof.Gen.Kernel.Frame
import proofs.«124802_j65403761983716_1_alg».proof.Proof.Gen.KernelIdeal
import proofs.«124802_j65403761983716_1_alg».proof.Proof.Gen.KernelIdeal.Frame
import proofs.«124802_j65403761983716_1_alg».proof.Proof.Gen.ReferenceIdeal
import proofs.«124802_j65403761983716_1_alg».proof.Proof.Gen.Pre_finite_inputs
import proofs.«124802_j65403761983716_1_alg».proof.Proof.KernelValue
import proofs.«124802_j65403761983716_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the scalar result at the mean row loss of arguments that agree. -/
theorem algebraic : Cert.algebraic_KernelIdeal_ReferenceIdeal := by
  intro m ρ m' ρ' _ hagree
  refine ⟨_, Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v5_eq _ _).trans ?_
  rw [Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
